-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 95
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S1x40, .f32⟩
  | .hbm, ⟨94, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S128x40, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S100000x40.size a
  hwx3_5 : ∀ i : grid3.Coords, EltTy.bits .f32 = 32 ∨ (Rect.block (s := S100000x40) S5000x40.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x1, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S100000x40, .f32⟩
  | .hbm, ⟨113, _⟩ => ⟨S1x40, .f32⟩
  | .hbm, ⟨114, _⟩ => ⟨S100000x40, .f32⟩
  | .hbm, ⟨115, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KFold.lean ====
/-
  The program's buffers between its four tiled regions, read back through the boundaries of its run.

  Before the first region the host computes, from the edge list alone, the source and target index vectors with the
  self-loops appended and the edge weights (the product of the inverse square roots of the two end nodes' degrees).
  After each product region it gathers the product's rows at the sources, scales them by the edge weights and adds them
  up at the targets. These are the very operations the reference program applies, so each buffer is the reference's
  stage of the same name once the region's product is; the gather and the scatter are never opened. A region changes
  only its own output array, a host stretch only the buffers it computes: everything else is carried along unchanged.
-/
import proofs.«121198_j4501125726319_1_alg».proof.Proof.Gen.KernelIdeal.Frame
import proofs.«121198_j4501125726319_1_alg».proof.Proof.RefRead
import Idealize.ShloMosaic.Lib.StableHlo.Run

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- An argument array as launched. -/
abbrev arg (b : Ref sig .tc) : Buf (Elt F) ((c : Thread nD τ).loc b) := m ((c : Thread nD τ).loc b)

/-- Opens the three host stretches before the first region. -/
local macro "open_first_stretches" : tactic =>
  `(tactic| (show StableHlo.after hostOps0_2 (StableHlo.after hostOps0_1 (StableHlo.after hostOps0 (W0 _ _ _))) _ = _
             after_results))
/-- Opens the host stretch between the first and the second region. -/
local macro "open_second_stretch" : tactic =>
  `(tactic| (show StableHlo.after hostOps1 (W4 _ _ _) _ = _
             after_results))
/-- Opens the host stretch between the third and the fourth region. -/
local macro "open_last_stretch" : tactic =>
  `(tactic| (show StableHlo.after hostOps3 (W7 _ _ _) _ = _
             after_results))

/-! ## At the first region's entry: the arguments as launched, the index vectors and the edge weights -/

/-- The node features. -/
theorem entry0_arg0 : W3 m ρ c (Proc.devRef .tc main_arg0) = arg m c main_arg0 := by
  open_first_stretches
  try rfl
/-- The first layer's weights. -/
theorem entry0_arg2 : W3 m ρ c (Proc.devRef .tc main_arg2) = arg m c main_arg2 := by
  open_first_stretches
  try rfl
/-- The first layer's bias. -/
theorem entry0_arg3 : W3 m ρ c (Proc.devRef .tc main_arg3) = arg m c main_arg3 := by
  open_first_stretches
  try rfl
/-- The normalisation's scale. -/
theorem entry0_arg4 : W3 m ρ c (Proc.devRef .tc main_arg4) = arg m c main_arg4 := by
  open_first_stretches
  try rfl
/-- The normalisation's shift. -/
theorem entry0_arg5 : W3 m ρ c (Proc.devRef .tc main_arg5) = arg m c main_arg5 := by
  open_first_stretches
  try rfl
/-- The running mean. -/
theorem entry0_arg6 : W3 m ρ c (Proc.devRef .tc main_arg6) = arg m c main_arg6 := by
  open_first_stretches
  try rfl
/-- The running variance. -/
theorem entry0_arg7 : W3 m ρ c (Proc.devRef .tc main_arg7) = arg m c main_arg7 := by
  open_first_stretches
  try rfl
/-- The second layer's weights. -/
theorem entry0_arg8 : W3 m ρ c (Proc.devRef .tc main_arg8) = arg m c main_arg8 := by
  open_first_stretches
  try rfl
/-- The second layer's bias. -/
theorem entry0_arg9 : W3 m ρ c (Proc.devRef .tc main_arg9) = arg m c main_arg9 := by
  open_first_stretches
  try rfl
/-- The projection's weights. -/
theorem entry0_arg10 : W3 m ρ c (Proc.devRef .tc main_arg10) = arg m c main_arg10 := by
  open_first_stretches
  try rfl
/-- The projection's bias. -/
theorem entry0_arg11 : W3 m ρ c (Proc.devRef .tc main_arg11) = arg m c main_arg11 := by
  open_first_stretches
  try rfl

/-- The source indices with the self-loops appended are the reference's. -/
theorem entry0_sources :
    W3 m ρ c (Proc.devRef .tc main_v5) = Cert.ReferenceIdeal.ReadCopy.val_main_v5 (F := F) (arg m c main_arg1) := by
  open_first_stretches
  rfl
/-- The target indices with the self-loops appended are the reference's. -/
theorem entry0_targets :
    W3 m ρ c (Proc.devRef .tc main_v6) = Cert.ReferenceIdeal.ReadCopy.val_main_v6 (F := F) (arg m c main_arg1) := by
  open_first_stretches
  rfl
set_option maxHeartbeats 4000000 in
/-- The edge weights are the reference's. -/
theorem entry0_weights :
    W3 m ρ c (Proc.devRef .tc main_v29) = Cert.ReferenceIdeal.ReadCopy.val_main_v29 (F := F) (arg m c main_arg1) := by
  show StableHlo.after hostOps0_2 (StableHlo.after hostOps0_1 (StableHlo.after hostOps0 (W0 m ρ c))) (Proc.devRef .tc main_v29) = _
  after_results_simp
  rfl

/-! ## After the first region -/

/-- The first region's output array is what its write-backs leave. -/
theorem exit0_product : W4 m ρ c (Proc.devRef .tc main_v30) = (dat0 (V3 m ρ) c).arrAt 2 cfg0.N := W4_arr m ρ c 2

/-! ## At the second region's entry -/

set_option maxHeartbeats 4000000 in
/-- The first aggregate is the reference's once the first product is. -/
theorem entry1_aggregate
    (h : W4 m ρ c (Proc.devRef .tc main_v30) = Cert.ReferenceIdeal.ReadCopy.val_main_v30 (F := F) (arg m c main_arg0) (arg m c main_arg2)) :
    W5 m ρ c (Proc.devRef .tc main_v43)
      = Cert.ReferenceIdeal.ReadCopy.val_main_v43 (F := F) (arg m c main_arg0) (arg m c main_arg1) (arg m c main_arg2) := by
  show StableHlo.after hostOps1 (W4 m ρ c) (Proc.devRef .tc main_v43) = _
  after_results_simp
  rw [h, W4_of_ne m ρ c main_v5 (by decide), entry0_sources, W4_of_ne m ρ c main_v6 (by decide), entry0_targets,
    W4_of_ne m ρ c main_v29 (by decide), entry0_weights]
  rfl
/-- The bias as a row. -/
theorem entry1_bias : W5 m ρ c (Proc.devRef .tc main_v44) = shapeCast S1x128 (arg m c main_arg3) shapeCasts_S128_S1x128 := by
  open_second_stretch
  rw [W4_of_ne m ρ c main_arg3 (by decide), entry0_arg3]
  rfl
/-- The scale as a row. -/
theorem entry1_scale : W5 m ρ c (Proc.devRef .tc main_v45) = shapeCast S1x128 (arg m c main_arg4) shapeCasts_S128_S1x128 := by
  open_second_stretch
  rw [W4_of_ne m ρ c main_arg4 (by decide), entry0_arg4]
  rfl
/-- The shift as a row. -/
theorem entry1_shift : W5 m ρ c (Proc.devRef .tc main_v46) = shapeCast S1x128 (arg m c main_arg5) shapeCasts_S128_S1x128 := by
  open_second_stretch
  rw [W4_of_ne m ρ c main_arg5 (by decide), entry0_arg5]
  rfl
/-- The running mean as a row. -/
theorem entry1_mean : W5 m ρ c (Proc.devRef .tc main_v47) = shapeCast S1x128 (arg m c main_arg6) shapeCasts_S128_S1x128 := by
  open_second_stretch
  rw [W4_of_ne m ρ c main_arg6 (by decide), entry0_arg6]
  rfl
/-- The running variance as a row. -/
theorem entry1_variance : W5 m ρ c (Proc.devRef .tc main_v48) = shapeCast S1x128 (arg m c main_arg7) shapeCasts_S128_S1x128 := by
  open_second_stretch
  rw [W4_of_ne m ρ c main_arg7 (by decide), entry0_arg7]
  rfl

/-! ## After the second region, at the third region's entry -/

/-- The second region's output array is what its write-backs leave. -/
theorem exit1_features : W6 m ρ c (Proc.devRef .tc main_v49) = (dat1 (V5 m ρ) c).arrAt 6 cfg1.N := W6_arr m ρ c 6
/-- The second layer's weights reach the third region as launched. -/
theorem entry2_weights : W6 m ρ c (Proc.devRef .tc main_arg8) = arg m c main_arg8 := by
  rw [W6_of_ne m ρ c main_arg8 (by decide)]
  open_second_stretch
  rw [W4_of_ne m ρ c main_arg8 (by decide), entry0_arg8]

/-! ## After the third region -/

/-- The third region's output array is what its write-backs leave. -/
theorem exit2_product : W7 m ρ c (Proc.devRef .tc main_v50) = (dat2 (V6 m ρ) c).arrAt 2 cfg2.N := W7_arr m ρ c 2
/-- The third region only reads the first layer's features. -/
theorem exit2_features : W7 m ρ c (Proc.devRef .tc main_v49) = W6 m ρ c (Proc.devRef .tc main_v49) :=
  (W7_arr m ρ c 0).trans (((dat2 (V6 m ρ) c).arrAt_in 0 rfl _).trans (A_eq2 (V6 m ρ) c 0))
/-- The source indices are still the reference's. -/
theorem exit2_sources : W7 m ρ c (Proc.devRef .tc main_v5) = Cert.ReferenceIdeal.ReadCopy.val_main_v5 (F := F) (arg m c main_arg1) := by
  rw [W7_of_ne m ρ c main_v5 (by decide), W6_of_ne m ρ c main_v5 (by decide)]
  open_second_stretch
  rw [W4_of_ne m ρ c main_v5 (by decide), entry0_sources]
/-- The target indices are still the reference's. -/
theorem exit2_targets : W7 m ρ c (Proc.devRef .tc main_v6) = Cert.ReferenceIdeal.ReadCopy.val_main_v6 (F := F) (arg m c main_arg1) := by
  rw [W7_of_ne m ρ c main_v6 (by decide), W6_of_ne m ρ c main_v6 (by decide)]
  open_second_stretch
  rw [W4_of_ne m ρ c main_v6 (by decide), entry0_targets]
/-- The edge weights are still the reference's. -/
theorem exit2_weights : W7 m ρ c (Proc.devRef .tc main_v29) = Cert.ReferenceIdeal.ReadCopy.val_main_v29 (F := F) (arg m c main_arg1) := by
  rw [W7_of_ne m ρ c main_v29 (by decide), W6_of_ne m ρ c main_v29 (by decide)]
  open_second_stretch
  rw [W4_of_ne m ρ c main_v29 (by decide), entry0_weights]
/-- The second layer's bias is as launched. -/
theorem exit2_arg9 : W7 m ρ c (Proc.devRef .tc main_arg9) = arg m c main_arg9 := by
  rw [W7_of_ne m ρ c main_arg9 (by decide), W6_of_ne m ρ c main_arg9 (by decide)]
  open_second_stretch
  rw [W4_of_ne m ρ c main_arg9 (by decide), entry0_arg9]
/-- The projection's weights are as launched. -/
theorem exit2_arg10 : W7 m ρ c (Proc.devRef .tc main_arg10) = arg m c main_arg10 := by
  rw [W7_of_ne m ρ c main_arg10 (by decide), W6_of_ne m ρ c main_arg10 (by decide)]
  open_second_stretch
  rw [W4_of_ne m ρ c main_arg10 (by decide), entry0_arg10]
/-- The projection's bias is as launched. -/
theorem exit2_arg11 : W7 m ρ c (Proc.devRef .tc main_arg11) = arg m c main_arg11 := by
  rw [W7_of_ne m ρ c main_arg11 (by decide), W6_of_ne m ρ c main_arg11 (by decide)]
  open_second_stretch
  rw [W4_of_ne m ρ c main_arg11 (by decide), entry0_arg11]

/-! ## At the fourth region's entry -/

set_option maxHeartbeats 4000000 in
/-- The second aggregate is the reference's once the first layer's features and the second product are. -/
theorem entry3_aggregate {x3 x4 x5 x6 x7 : (⟨S128, .f32⟩ : BufTy).Contents (Elt F)}
    (h : W7 m ρ c (Proc.devRef .tc main_v50)
      = Cert.ReferenceIdeal.ReadCopy.val_main_v63 (F := F) (arg m c main_arg0) (arg m c main_arg1) (arg m c main_arg2) x3 x4 x5 x6 x7 (arg m c main_arg8)) :
    W8 m ρ c (Proc.devRef .tc main_v63)
      = Cert.ReferenceIdeal.ReadCopy.val_main_v76 (F := F) (arg m c main_arg0) (arg m c main_arg1) (arg m c main_arg2) x3 x4 x5 x6 x7 (arg m c main_arg8) := by
  show StableHlo.after hostOps3 (W7 m ρ c) (Proc.devRef .tc main_v63) = _
  after_results_simp
  rw [h, exit2_sources, exit2_targets, exit2_weights]
  rfl
/-- The first layer's features reach the fourth region as the second region left them. -/
theorem entry3_features : W8 m ρ c (Proc.devRef .tc main_v49) = W6 m ρ c (Proc.devRef .tc main_v49) := by
  open_last_stretch
  exact exit2_features m ρ c
/-- The second layer's bias as a row. -/
theorem entry3_bias : W8 m ρ c (Proc.devRef .tc main_v64) = shapeCast S1x128 (arg m c main_arg9) shapeCasts_S128_S1x128 := by
  open_last_stretch
  rw [exit2_arg9]
  rfl
/-- The projection's weights as launched. -/
theorem entry3_weights : W8 m ρ c (Proc.devRef .tc main_arg10) = arg m c main_arg10 := by
  open_last_stretch
  exact exit2_arg10 m ρ c
/-- The projection's bias as a row. -/
theorem entry3_projBias : W8 m ρ c (Proc.devRef .tc main_v65) = shapeCast S1x40 (arg m c main_arg11) shapeCasts_S40_S1x40 := by
  open_last_stretch
  rw [exit2_arg11]
  rfl

/-! ## After the fourth region -/

/-- The result array is what the fourth region's write-backs leave. -/
theorem exit3_result : W9 m ρ c (Proc.devRef .tc main_v66) = (dat3 (V8 m ρ) c).arrAt 5 cfg3.N := W9_arr m ρ c 5

end Cert.KernelIdeal.Fold

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Region0.lean ====
/-
  The first matrix product, x · W, tiled over rows. The grid has twenty points; point t takes rows 5000 t … 5000 t + 4999
  of the [100000, 128] operand and the whole [128, 128] weight, multiplies them into a zero accumulator and writes the
  [5000, 128] product back as rows 5000 t … 5000 t + 4999 of the result. Entry (p, q) of a point's product is the sum over
  k of the row block's (p, k) entry times the weight's (k, q) entry, which is entry (5000 t + p, q) of the product of the
  two whole arrays; the twenty row blocks fill the result, so after the run the result array is that product.
-/
import proofs.«121198_j4501125726319_1_alg».proof.Proof.Gen.KernelIdeal.Frame
import proofs.«121198_j4501125726319_1_alg».proof.Proof.LibPlainProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Tile0
open Cert.KernelIdeal Cert.KernelIdeal.Gen

/-- The offsets of a whole-block access, spelt as the zero function. -/
theorem hz : (![0, 0] : Fin 2 → Nat) = fun _ => 0 := funext fun a => by fin_cases a <;> rfl

/-- The product's dimension numbers are the plain ones: rows by columns, one contracted axis. -/
theorem dot_plain : dot_S5000x128_S128x128_S5000x128_1_0_0_1_n_n = DotDims.plain 5000 128 128 := rfl

/-- The body's product at (p, q): the sum over k of the left block's (p, k) entry times the right block's (k, q) entry
    (narrowing the operands changes nothing over the extended reals; the accumulator starts at zero). -/
theorem payload_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  rw [dot_plain]
  exact Cert.PlainProduct.matmul_zero_apply (M := 5000) (K := 128) (N := 128) none _ _ p q

/-- The block indices over the grid: at point t the left operand's and the result's block is (t, 0), the weight's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has twenty points. -/
theorem point_lt (t : Fin cfg0.N) : t.val < 20 := lt_of_lt_of_eq t.isLt (N_0 : cfg0.N = 20)

/-- Row 5000 t + p of the product array, from a block of rows x0 that holds rows 5000 t … 5000 t + 4999 of A and a
    block x1 that holds all of B: the body's product at (p, q). -/
theorem point_eq (A : FVec Ideal ⟨2, ![100000, 128]⟩ .f32) (B : FVec Ideal ⟨2, ![128, 128]⟩ .f32)
    (x0 : Vec Ideal S5000x128 .f32) (x1 : Vec Ideal S128x128 .f32) (t : ℕ) (ht : t < 20)
    (h0 : ∀ (p : Fin 5000) (k : Fin 128), x0 (ix2 p k) = A (ix2 (⟨5000 * t + p.val, by have := p.isLt; omega⟩ : Fin 100000) k))
    (h1 : ∀ (k q : Fin 128), x1 (ix2 k q) = B (ix2 k q)) (p : Fin 5000) (q : Fin 128) :
    k0_pay1 (F := Ideal) x0 x1 (ix2 p q)
      = Cert.PlainProduct.prod A B (ix2 (⟨5000 * t + p.val, by have := p.isLt; omega⟩ : Fin 100000) q) := by
  rw [payload_apply, Cert.PlainProduct.prod_apply]
  exact Finset.sum_congr rfl fun k _ => by rw [h0, h1]

variable (V : (c : Dev nD) → (b : Ref sig .tc) → Buf (Elt Ideal) ((c : Thread nD τ).loc b))

/-- The left operand's block at point t is rows 5000 t … 5000 t + 4999 of its array. -/
theorem lhs_block (c : Dev nD) (t : Fin cfg0.N) (p : Fin 5000) (k : Fin 128) :
    (iblk0 V c 0 t : Vec Ideal S5000x128 .f32) (ix2 p k)
      = (V c main_arg0 : S100000x128.Idx → EReal) (ix2 (⟨5000 * t.val + p.val, by have := p.isLt; have := point_lt t; omega⟩ : Fin 100000) k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The weight's block at every point is the whole weight. -/
theorem rhs_block (c : Dev nD) (t : Fin cfg0.N) (k q : Fin 128) :
    (iblk0 V c 1 t : Vec Ideal S128x128 .f32) (ix2 k q) = (V c main_arg2 : S128x128.Idx → EReal) (ix2 k q) := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the product array: rows 5000 t … 5000 t + 4999. -/
theorem flushed_eq (c : Dev nD) (t : Fin cfg0.N) :
    (dat0 (F := Ideal) V c).flushed 2 t
      = ((cfg0.win 2).blk t).view.read (Elt Ideal)
          (Cert.PlainProduct.prod (M := 100000) (K := 128) (N := 128) (φ₁ := .f32) (φ₂ := .f32) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  obtain ⟨p, q, rfl⟩ : ∃ (p : Fin 5000) (q : Fin 128), j = ix2 p q := ⟨j 0, j 1, eq_ix2 j⟩
  refine (point_eq (V c main_arg0) (V c main_arg2) (iblk0 V c 0 t) (iblk0 V c 1 t) t.val (point_lt t)
    (lhs_block V c t) (rhs_block V c t) p q).trans ?_
  rw [View.read_apply]
  show Cert.PlainProduct.prod (V c main_arg0) (V c main_arg2) _ = Cert.PlainProduct.prod (V c main_arg0) (V c main_arg2) _
  congr 1
  funext a
  apply Fin.ext
  match a with
  | ⟨0, _⟩ => show 5000 * t.val + p.val = win0_2.index t (0 : Fin 2) * 5000 + 1 * p.val; rw [e4]; omega
  | ⟨1, _⟩ => show q.val = win0_2.index t (1 : Fin 2) * 128 + 1 * q.val; rw [e5]; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the array is in some point's block: row r is in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, lt_of_lt_of_eq (by omega) (N_0 : cfg0.N = 20).symm⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the run the result array is the product of the two operand arrays. -/
theorem array_eq (c : Dev nD) :
    (dat0 (F := Ideal) V c).arrAt 2 cfg0.N
      = Cert.PlainProduct.prod (M := 100000) (K := 128) (N := 128) (φ₁ := .f32) (φ₂ := .f32) (V c main_arg0) (V c main_arg2) :=
  (dat0 (F := Ideal) V c).arrAt_eq_of_cover 2 _ (fun t _ => flushed_eq V c t) cover

end Cert.KernelIdeal.Tile0

end
-- ==== Proof.Spec.lean ====
/-
  The two tile functions of the graph network that are not plain matrix products, as functions of whole arrays over
  the extended reals, entry by entry.

  * After the first aggregation a node's feature q becomes
      max ( ((agg + b) − mean) · (var + ε)^(−1/2) · γ + β , 0 ):
    the bias, the batch normalisation with running statistics, the rectifier. The five parameters are rows [1, 128].
  * After the second aggregation the two layers are joined by an entrywise maximum, x1 against agg2 + b2, and the
    joined features are projected: the product with Wf [128, 40] plus the row bf [1, 40].
-/
import Idealize.ShloMosaic.Lib.ValueIdx
import Idealize.ShloMosaic.PureOps.Ideal
import proofs.«121198_j4501125726319_1_alg».proof.Proof.LibPlainProduct

noncomputable section

namespace Cert.GraphJoin

open Idealize.ShloMosaic Idealize.ShloMosaic.ValueIdx

/-- Bias, normalisation and rectifier at node p, feature q. -/
def normReluAt (agg : FVec Ideal ⟨2, ![100000, 128]⟩ .f32) (b gamma beta mean var : FVec Ideal ⟨2, ![1, 128]⟩ .f32)
    (p : Fin 100000) (q : Fin 128) : EReal :=
  max ((((agg (ix2 p q) + b (ix2 0 q)) - mean (ix2 0 q))
          * Ideal.rsqrt (var (ix2 0 q) + Ideal.ofBits .f32 0x3727C5AC#32)) * gamma (ix2 0 q) + beta (ix2 0 q))
    (Ideal.ofBits .f32 0x00000000#32)

/-- The normalised, rectified features as one array. -/
def normRelu (agg : FVec Ideal ⟨2, ![100000, 128]⟩ .f32) (b gamma beta mean var : FVec Ideal ⟨2, ![1, 128]⟩ .f32) :
    FVec Ideal ⟨2, ![100000, 128]⟩ .f32 :=
  fun i => normReluAt agg b gamma beta mean var (i 0) (i 1)

theorem normRelu_apply (agg : FVec Ideal ⟨2, ![100000, 128]⟩ .f32) (b gamma beta mean var : FVec Ideal ⟨2, ![1, 128]⟩ .f32)
    (p : Fin 100000) (q : Fin 128) :
    normRelu agg b gamma beta mean var (ix2 p q) = normReluAt agg b gamma beta mean var p q := rfl

/-- The two layers joined: the larger of the first layer's feature and the second layer's biased aggregate. -/
def joined (x1 agg2 : FVec Ideal ⟨2, ![100000, 128]⟩ .f32) (b2 : FVec Ideal ⟨2, ![1, 128]⟩ .f32) :
    FVec Ideal ⟨2, ![100000, 128]⟩ .f32 :=
  fun i => max (x1 i) (agg2 i + b2 (ix2 0 (i 1)))

theorem joined_apply (x1 agg2 : FVec Ideal ⟨2, ![100000, 128]⟩ .f32) (b2 : FVec Ideal ⟨2, ![1, 128]⟩ .f32)
    (p : Fin 100000) (k : Fin 128) :
    joined x1 agg2 b2 (ix2 p k) = max (x1 (ix2 p k)) (agg2 (ix2 p k) + b2 (ix2 0 k)) := rfl

/-- The projection of the joined features: their product with Wf plus the bias row. -/
def projected (x1 agg2 : FVec Ideal ⟨2, ![100000, 128]⟩ .f32) (b2 : FVec Ideal ⟨2, ![1, 128]⟩ .f32)
    (wf : FVec Ideal ⟨2, ![128, 40]⟩ .f32) (bf : FVec Ideal ⟨2, ![1, 40]⟩ .f32) : FVec Ideal ⟨2, ![100000, 40]⟩ .f32 :=
  fun i => Cert.PlainProduct.prod (joined x1 agg2 b2) wf i + bf (ix2 0 (i 1))

theorem projected_apply (x1 agg2 : FVec Ideal ⟨2, ![100000, 128]⟩ .f32) (b2 : FVec Ideal ⟨2, ![1, 128]⟩ .f32)
    (wf : FVec Ideal ⟨2, ![128, 40]⟩ .f32) (bf : FVec Ideal ⟨2, ![1, 40]⟩ .f32) (p : Fin 100000) (o : Fin 40) :
    projected x1 agg2 b2 wf bf (ix2 p o)
      = (∑ k : Fin 128, max (x1 (ix2 p k)) (agg2 (ix2 p k) + b2 (ix2 0 k)) * wf (ix2 k o)) + bf (ix2 0 o) := rfl

end Cert.GraphJoin

end
-- ==== Proof.Region1.lean ====
/-
  The bias, batch-normalisation and rectifier tile of the graph network, read as one array.

  The region walks twenty row tiles of 5000 nodes. At tile t it holds rows 5000 t … 5000 t + 4999 of the aggregate
  and the five parameter rows whole, and leaves
      max ( ((agg + b) − mean) · (var + ε)^(−1/2) · γ + β , 0 )
  entry by entry as rows 5000 t … 5000 t + 4999 of the result. The twenty tiles partition the 100000 rows, so the result
  array is that expression at every node and feature.
-/
import proofs.«121198_j4501125726319_1_alg».proof.Proof.Gen.KernelIdeal.Frame
import proofs.«121198_j4501125726319_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Tile1
open Cert.KernelIdeal.Gen

/-- The tile's expression at row p, feature q of the tile: the aggregate's entry plus the bias, less the mean, times the
    inverse root of the variance plus ε, times the scale, plus the shift, cut below at zero. The five rows are read at
    their one row. -/
theorem payload_apply (x : Vec Ideal S5000x128 .f32) (b mean var gamma beta : Vec Ideal S1x128 .f32)
    (p : Fin 5000) (q : Fin 128) :
    k1_pay1 (F := Ideal) x b mean var gamma beta (ix2 p q)
      = max ((((x (ix2 p q) + b (ix2 0 q)) - mean (ix2 0 q))
              * Ideal.rsqrt (var (ix2 0 q) + Ideal.ofBits .f32 0x3727C5AC#32)) * gamma (ix2 0 q) + beta (ix2 0 q))
          (Ideal.ofBits .f32 0x00000000#32) := by
  unfold k1_pay1
  simp only [shapeCast_self]
  rw [maximumf_apply, addf_apply, mulf_apply, mulf_apply, subf_apply, addf_apply, broadcast_apply]
  rw [broadcastTo_1b_ab_apply, broadcastTo_1b_ab_apply, broadcastTo_1b_ab_apply, broadcastTo_1b_ab_apply,
    broadcastTo_1b_ab_apply]
  rfl

/-- The zero offsets of a whole-buffer access, as the constant function. -/
theorem zero_offsets : (![0, 0] : Fin 2 → Nat) = fun _ => 0 := funext fun a => by fin_cases a <;> rfl

/-- The grid has twenty tiles. -/
theorem tiles_eq : cfg1.N = 20 := by decide

/-- The block index maps over the grid: at tile t the aggregate's window and the result's window sit at block (t, 0),
    and each parameter row's window at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- Row p of tile t is row 5000 t + p of the array. -/
def row (t : Fin cfg1.N) (p : Fin 5000) : Fin 100000 :=
  ⟨t.val * 5000 + p.val, by have h : t.val < 20 := lt_of_lt_of_eq t.isLt tiles_eq; have := p.isLt; omega⟩

/-- Tile t of the aggregate is its rows 5000 t … 5000 t + 4999: entry (p, q) of the tile is entry (5000 t + p, q) of the
    array. -/
theorem agg_block (c : Dev nD) (t : Fin cfg1.N) (p : Fin 5000) (q : Fin 128) :
    iblk1 V c 0 t (ix2 p q) = V c main_v43 (ix2 (row t p) q) := by
  obtain ⟨e0, e1, -⟩ := index_facts t
  show V c main_v43 (((cfg1.win 0).blk t).view.emb (ix2 p q)) = V c main_v43 (ix2 (row t p) q)
  congr 1
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- At every tile the bias row's window holds the row whole: its entry q is the array's entry (0, q). -/
theorem bias_block (c : Dev nD) (t : Fin cfg1.N) (q : Fin 128) :
    iblk1 V c 1 t (ix2 0 q) = V c main_v44 (ix2 0 q) := by
  obtain ⟨-, -, e0, e1, -⟩ := index_facts t
  show V c main_v44 (((cfg1.win 1).blk t).view.emb (ix2 0 q)) = V c main_v44 (ix2 0 q)
  congr 1
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- At every tile the scale row's window holds the row whole: its entry q is the array's entry (0, q). -/
theorem scale_block (c : Dev nD) (t : Fin cfg1.N) (q : Fin 128) :
    iblk1 V c 2 t (ix2 0 q) = V c main_v45 (ix2 0 q) := by
  obtain ⟨-, -, -, -, e0, e1, -⟩ := index_facts t
  show V c main_v45 (((cfg1.win 2).blk t).view.emb (ix2 0 q)) = V c main_v45 (ix2 0 q)
  congr 1
  funext a; apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- At every tile the shift row's window holds the row whole: its entry q is the array's entry (0, q). -/
theorem shift_block (c : Dev nD) (t : Fin cfg1.N) (q : Fin 128) :
    iblk1 V c 3 t (ix2 0 q) = V c main_v46 (ix2 0 q) := by
  obtain ⟨-, -, -, -, -, -, e0, e1, -⟩ := index_facts t
  show V c main_v46 (((cfg1.win 3).blk t).view.emb (ix2 0 q)) = V c main_v46 (ix2 0 q)
  congr 1
  funext a; apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- At every tile the mean row's window holds the row whole: its entry q is the array's entry (0, q). -/
theorem mean_block (c : Dev nD) (t : Fin cfg1.N) (q : Fin 128) :
    iblk1 V c 4 t (ix2 0 q) = V c main_v47 (ix2 0 q) := by
  obtain ⟨-, -, -, -, -, -, -, -, e0, e1, -⟩ := index_facts t
  show V c main_v47 (((cfg1.win 4).blk t).view.emb (ix2 0 q)) = V c main_v47 (ix2 0 q)
  congr 1
  funext a; apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- At every tile the variance row's window holds the row whole: its entry q is the array's entry (0, q). -/
theorem var_block (c : Dev nD) (t : Fin cfg1.N) (q : Fin 128) :
    iblk1 V c 5 t (ix2 0 q) = V c main_v48 (ix2 0 q) := by
  obtain ⟨-, -, -, -, -, -, -, -, -, -, e0, e1, -⟩ := index_facts t
  show V c main_v48 (((cfg1.win 5).blk t).view.emb (ix2 0 q)) = V c main_v48 (ix2 0 q)
  congr 1
  funext a; apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

/-- What tile t writes back is rows 5000 t … 5000 t + 4999 of the normalised, rectified array: the tile's expression at
    (p, q), with each operand read where its window sits, is the array's expression at (5000 t + p, q). -/
theorem flushed_eq (c : Dev nD) (t : Fin cfg1.N) :
    (dat1 (F := Ideal) V c).flushed 6 t
      = ((cfg1.win 6).blk t).view.read (Elt Ideal)
          (Cert.GraphJoin.normRelu (V c main_v43) (V c main_v44) (V c main_v45) (V c main_v46) (V c main_v47) (V c main_v48)) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 4 t) (iblk1 V c 5 t) (iblk1 V c 2 t) (iblk1 V c 3 t) (ix2 p q)
    = Cert.GraphJoin.normRelu (V c main_v43) (V c main_v44) (V c main_v45) (V c main_v46) (V c main_v47) (V c main_v48)
        (((cfg1.win 6).blk t).view.emb (ix2 p q))
  have hemb : ((cfg1.win 6).blk t).view.emb (ix2 p q) = (ix2 (row t p) q : S100000x128.Idx) := by
    obtain ⟨-, -, -, -, -, -, -, -, -, -, -, -, e0, e1⟩ := index_facts t
    funext a; apply Fin.ext
    match a with
    | ⟨0, _⟩ => show win1_6.index t (0 : Fin 2) * 5000 + 1 * p.val = t.val * 5000 + p.val; rw [e0]; omega
    | ⟨1, _⟩ => show win1_6.index t (1 : Fin 2) * 128 + 1 * q.val = q.val; rw [e1]; omega
  rw [hemb, payload_apply, agg_block, bias_block, scale_block, shift_block, mean_block, var_block,
    Cert.GraphJoin.normRelu_apply]
  rfl

/-- An index of the array lies in tile t's block exactly when each coordinate lies in the block's range on its axis. -/
theorem mem_block (t : Fin cfg1.N) (i : S100000x128.Idx) :
    i ∈ ((cfg1.win 6).blk t).view.set
      ↔ ∀ a : Fin 2, win1_6.index t a * S5000x128.size a ≤ (i a).val
          ∧ (i a).val < win1_6.index t a * S5000x128.size a + S5000x128.size a := by
  show i ∈ ((View.whole main_v49).slice (win1_6.rect t)).set ↔ _
  rw [View.set_slice_whole, Rect.mem_set_unit]
  exact Iff.rfl

/-- The twenty tiles cover the array: row r lies in tile r / 5000, and every tile is written back. -/
theorem covered (i : S100000x128.Idx) :
    ∃ t : Fin cfg1.N, (cfg1.win 6).flush t = true ∧ i ∈ ((cfg1.win 6).blk t).view.set := by
  have h0 : (i 0).val < 100000 := (i 0).isLt
  have h1 : (i 1).val < 128 := (i 1).isLt
  have ht : (i 0).val / 5000 < cfg1.N := by rw [tiles_eq]; omega
  obtain ⟨-, -, -, -, -, -, -, -, -, -, -, -, e0, e1⟩ := index_facts ⟨(i 0).val / 5000, ht⟩
  refine ⟨⟨(i 0).val / 5000, ht⟩, flush1_6 _, ?_⟩
  rw [mem_block]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    rw [e1]
    omega

/-- The region's result array: bias, normalisation and rectifier of the aggregate at every node and feature. -/
theorem array_eq (c : Dev nD) :
    (dat1 (F := Ideal) V c).arrAt 6 cfg1.N
      = Cert.GraphJoin.normRelu (V c main_v43) (V c main_v44) (V c main_v45) (V c main_v46) (V c main_v47) (V c main_v48) :=
  (dat1 V c).arrAt_eq_of_cover 6 _ (fun t _ => flushed_eq V c t) covered

end Cert.KernelIdeal.Tile1

end
-- ==== Proof.Region2.lean ====
/-
  The second matrix product, h · W₂, tiled over rows exactly as the first: twenty points; point t takes rows
  5000 t … 5000 t + 4999 of the [100000, 128] activation array and the whole [128, 128] weight, multiplies them into a zero
  accumulator and writes the [5000, 128] product back as rows 5000 t … 5000 t + 4999 of the result. Entry (p, q) of a
  point's product is entry (5000 t + p, q) of the product of the two whole arrays, and the twenty row blocks fill the
  result, so after the run the result array is that product.
-/
import proofs.«121198_j4501125726319_1_alg».proof.Proof.Gen.KernelIdeal.Frame
import proofs.«121198_j4501125726319_1_alg».proof.Proof.LibPlainProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Tile2
open Cert.KernelIdeal Cert.KernelIdeal.Gen

/-- The offsets of a whole-block access, spelt as the zero function. -/
theorem hz : (![0, 0] : Fin 2 → Nat) = fun _ => 0 := funext fun a => by fin_cases a <;> rfl

/-- The product's dimension numbers are the plain ones: rows by columns, one contracted axis. -/
theorem dot_plain : dot_S5000x128_S128x128_S5000x128_1_0_0_1_n_n = DotDims.plain 5000 128 128 := rfl

/-- The body's product at (p, q): the sum over k of the left block's (p, k) entry times the right block's (k, q) entry
    (recasting a block to its own shape and narrowing the operands change nothing over the extended reals; the accumulator
    starts at zero). -/
theorem payload_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [dot_plain, shapeCast_self]
  exact Cert.PlainProduct.matmul_zero_apply (M := 5000) (K := 128) (N := 128) none _ _ p q

/-- The block indices over the grid: at point t the left operand's and the result's block is (t, 0), the weight's (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The grid has twenty points. -/
theorem point_lt (t : Fin cfg2.N) : t.val < 20 := lt_of_lt_of_eq t.isLt (N_2 : cfg2.N = 20)

/-- Row 5000 t + p of the product array, from a block of rows x0 that holds rows 5000 t … 5000 t + 4999 of A and a
    block x1 that holds all of B: the body's product at (p, q). -/
theorem point_eq (A : FVec Ideal ⟨2, ![100000, 128]⟩ .f32) (B : FVec Ideal ⟨2, ![128, 128]⟩ .f32)
    (x0 : Vec Ideal S5000x128 .f32) (x1 : Vec Ideal S128x128 .f32) (t : ℕ) (ht : t < 20)
    (h0 : ∀ (p : Fin 5000) (k : Fin 128), x0 (ix2 p k) = A (ix2 (⟨5000 * t + p.val, by have := p.isLt; omega⟩ : Fin 100000) k))
    (h1 : ∀ (k q : Fin 128), x1 (ix2 k q) = B (ix2 k q)) (p : Fin 5000) (q : Fin 128) :
    k2_pay1 (F := Ideal) x0 x1 (ix2 p q)
      = Cert.PlainProduct.prod A B (ix2 (⟨5000 * t + p.val, by have := p.isLt; omega⟩ : Fin 100000) q) := by
  rw [payload_apply, Cert.PlainProduct.prod_apply]
  exact Finset.sum_congr rfl fun k _ => by rw [h0, h1]

variable (V : (c : Dev nD) → (b : Ref sig .tc) → Buf (Elt Ideal) ((c : Thread nD τ).loc b))

/-- The left operand's block at point t is rows 5000 t … 5000 t + 4999 of its array. -/
theorem lhs_block (c : Dev nD) (t : Fin cfg2.N) (p : Fin 5000) (k : Fin 128) :
    (iblk2 V c 0 t : Vec Ideal S5000x128 .f32) (ix2 p k)
      = (V c main_v49 : S100000x128.Idx → EReal) (ix2 (⟨5000 * t.val + p.val, by have := p.isLt; have := point_lt t; omega⟩ : Fin 100000) k) := by
  obtain ⟨e0, e1, -, -, -, -⟩ := idx_facts t
  unfold iblk2
  rw [View.read_apply]
  show V c main_v49 _ = V c main_v49 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The weight's block at every point is the whole weight. -/
theorem rhs_block (c : Dev nD) (t : Fin cfg2.N) (k q : Fin 128) :
    (iblk2 V c 1 t : Vec Ideal S128x128 .f32) (ix2 k q) = (V c main_arg8 : S128x128.Idx → EReal) (ix2 k q) := by
  obtain ⟨-, -, e2, e3, -, -⟩ := idx_facts t
  unfold iblk2
  rw [View.read_apply]
  show V c main_arg8 _ = V c main_arg8 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the product array: rows 5000 t … 5000 t + 4999. -/
theorem flushed_eq (c : Dev nD) (t : Fin cfg2.N) :
    (dat2 (F := Ideal) V c).flushed 2 t
      = ((cfg2.win 2).blk t).view.read (Elt Ideal)
          (Cert.PlainProduct.prod (M := 100000) (K := 128) (N := 128) (φ₁ := .f32) (φ₂ := .f32) (V c main_v49) (V c main_arg8)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  funext j
  obtain ⟨p, q, rfl⟩ : ∃ (p : Fin 5000) (q : Fin 128), j = ix2 p q := ⟨j 0, j 1, eq_ix2 j⟩
  refine (point_eq (V c main_v49) (V c main_arg8) (iblk2 V c 0 t) (iblk2 V c 1 t) t.val (point_lt t)
    (lhs_block V c t) (rhs_block V c t) p q).trans ?_
  rw [View.read_apply]
  show Cert.PlainProduct.prod (V c main_v49) (V c main_arg8) _ = Cert.PlainProduct.prod (V c main_v49) (V c main_arg8) _
  congr 1
  funext a
  apply Fin.ext
  match a with
  | ⟨0, _⟩ => show 5000 * t.val + p.val = win2_2.index t (0 : Fin 2) * 5000 + 1 * p.val; rw [e4]; omega
  | ⟨1, _⟩ => show q.val = win2_2.index t (1 : Fin 2) * 128 + 1 * q.val; rw [e5]; omega

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- Every entry of the array is in some point's block: row r is in block r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 5000, lt_of_lt_of_eq (by omega) (N_2 : cfg2.N = 20).symm⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- After the run the result array is the product of the two operand arrays. -/
theorem array_eq (c : Dev nD) :
    (dat2 (F := Ideal) V c).arrAt 2 cfg2.N
      = Cert.PlainProduct.prod (M := 100000) (K := 128) (N := 128) (φ₁ := .f32) (φ₂ := .f32) (V c main_v49) (V c main_arg8) :=
  (dat2 (F := Ideal) V c).arrAt_eq_of_cover 2 _ (fun t _ => flushed_eq V c t) cover

end Cert.KernelIdeal.Tile2

end
-- ==== Proof.Region3.lean ====
/-
  The last region: the two layers joined by an entrywise maximum and projected.

  The region runs over 20 row tiles. Point t reads rows 5000 t … 5000 t + 4999 of the first layer's features and of
  the second aggregate, and, whole, the second layer's bias row, the projection's weight and its bias row; it forms
  max (x1, agg2 + b2) entry by entry, multiplies the result by the weight, adds the bias row, and writes the [5000, 40]
  tile back as rows 5000 t … 5000 t + 4999 of the output. Read at row p, column o of the tile that is
    (∑ k, max (x1 (5000 t + p, k)) (agg2 (5000 t + p, k) + b2 (0, k)) · Wf (k, o)) + bf (0, o),
  the entry (5000 t + p, o) of the projection of the joined layers; the 20 tiles cover every row of the output (row r
  lies in tile r / 5000), so after the region the output array is that projection.
-/
import proofs.«121198_j4501125726319_1_alg».proof.Proof.Gen.KernelIdeal.Frame
import proofs.«121198_j4501125726319_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Tile3
open Cert.KernelIdeal Cert.KernelIdeal.Gen

variable (V : (c : Dev nD) → (b : Ref sig .tc) → Buf (Elt Ideal) ((c : Thread nD τ).loc b))

/-- The projection's dimension numbers are those of a plain [5000, 128] by [128, 40] product: the left operand's
    second axis is contracted against the right operand's first. -/
theorem dot_plain : dot_S5000x128_S128x40_S5000x40_1_0_0_1_n_n = DotDims.plain 5000 128 40 := rfl

/-- The tile's payload at row p, column o: the joined row p times column o of the weight, plus the bias at o.
    Narrowing the product's operands changes nothing over the extended reals, a cast to the same shape is the
    identity, and a one-row array broadcast down the rows reads its one row. -/
theorem pay_apply (v0 : Vec Ideal S5000x128 .f32) (v2 : Vec Ideal S1x128 .f32) (v6 : Vec Ideal S5000x128 .f32)
    (v10 : Vec Ideal S128x40 .f32) (v13 : Vec Ideal S1x40 .f32) (p : Fin 5000) (o : Fin 40) :
    k3_pay1 (F := Ideal) v0 v2 v6 v10 v13 (ix2 p o)
      = (∑ k : Fin 128, max (v6 (ix2 p k)) (v0 (ix2 p k) + v2 (ix2 0 k)) * v10 (ix2 k o)) + v13 (ix2 0 o) := by
  unfold k3_pay1
  rw [addf_apply, dot_plain]
  rw [Cert.PlainProduct.matmul_zero_apply]
  rw [shapeCast_self, shapeCast_self, shapeCast_self, shapeCast_self]
  rw [broadcastTo_1b_ab_apply]
  refine congrArg (· + v13 (ix2 0 o)) (Finset.sum_congr rfl fun k _ => ?_)
  rw [truncf_apply, truncf_apply, maximumf_apply, addf_apply, broadcastTo_1b_ab_apply]

/-- The two-axis offset (0, 0), however spelt, is the zero offset. -/
theorem zero_offsets : (![0, 0] : Fin 2 → Nat) = fun _ => 0 := funext fun a => by fin_cases a <;> rfl

/-- The block index of each window at each of the 20 grid points: the two node-feature windows and the output
    move down the rows with the point, the bias rows and the weight stay at block (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ t.val < 20 :=
  (by decide +kernel : ∀ t : Fin grid3.N, _)

/-- Row p of the first layer's block at point t is row 5000 t + p of the first layer's features. -/
theorem x1_block_apply (c : Dev nD) (t : Fin cfg3.N) (p : Fin 5000) (k : Fin 128) (r : Fin 100000)
    (hr : r.val = 5000 * t.val + p.val) :
    (iblk3 V c 0 t : Vec Ideal S5000x128 .f32) (ix2 p k) = (V c main_v49 : FVec Ideal ⟨2, ![100000, 128]⟩ .f32) (ix2 r k) := by
  obtain ⟨e0, e1, -⟩ := block_indices t
  unfold iblk3
  rw [View.read_apply]
  show V c main_v49 _ = V c main_v49 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- Row p of the second aggregate's block at point t is row 5000 t + p of the second aggregate. -/
theorem agg2_block_apply (c : Dev nD) (t : Fin cfg3.N) (p : Fin 5000) (k : Fin 128) (r : Fin 100000)
    (hr : r.val = 5000 * t.val + p.val) :
    (iblk3 V c 1 t : Vec Ideal S5000x128 .f32) (ix2 p k) = (V c main_v63 : FVec Ideal ⟨2, ![100000, 128]⟩ .f32) (ix2 r k) := by
  obtain ⟨-, -, e0, e1, -⟩ := block_indices t
  unfold iblk3
  rw [View.read_apply]
  show V c main_v63 _ = V c main_v63 _
  congr 1
  funext a
  apply Fin.ext
  match a with
  | ⟨0, _⟩ => show win3_1.index t (0 : Fin 2) * 5000 + 1 * p.val = r.val; rw [e0, hr]; omega
  | ⟨1, _⟩ => show win3_1.index t (1 : Fin 2) * 128 + 1 * k.val = k.val; rw [e1]; omega

/-- The second layer's bias row is loaded whole at every point. -/
theorem b2_block_apply (c : Dev nD) (t : Fin cfg3.N) (z : Fin 1) (k : Fin 128) :
    (iblk3 V c 2 t : Vec Ideal S1x128 .f32) (ix2 z k) = (V c main_v64 : FVec Ideal ⟨2, ![1, 128]⟩ .f32) (ix2 z k) := by
  obtain ⟨-, -, -, -, e0, e1, -⟩ := block_indices t
  unfold iblk3
  rw [View.read_apply]
  show V c main_v64 _ = V c main_v64 _
  congr 1
  funext a
  apply Fin.ext
  match a with
  | ⟨0, _⟩ => show win3_2.index t (0 : Fin 2) * 1 + 1 * z.val = z.val; rw [e0]; omega
  | ⟨1, _⟩ => show win3_2.index t (1 : Fin 2) * 128 + 1 * k.val = k.val; rw [e1]; omega

/-- The projection's weight is loaded whole at every point. -/
theorem wf_block_apply (c : Dev nD) (t : Fin cfg3.N) (k : Fin 128) (o : Fin 40) :
    (iblk3 V c 3 t : Vec Ideal S128x40 .f32) (ix2 k o) = (V c main_arg10 : FVec Ideal ⟨2, ![128, 40]⟩ .f32) (ix2 k o) := by
  obtain ⟨-, -, -, -, -, -, e0, e1, -⟩ := block_indices t
  unfold iblk3
  rw [View.read_apply]
  show V c main_arg10 _ = V c main_arg10 _
  congr 1
  funext a
  apply Fin.ext
  match a with
  | ⟨0, _⟩ => show win3_3.index t (0 : Fin 2) * 128 + 1 * k.val = k.val; rw [e0]; omega
  | ⟨1, _⟩ => show win3_3.index t (1 : Fin 2) * 40 + 1 * o.val = o.val; rw [e1]; omega

/-- The projection's bias row is loaded whole at every point. -/
theorem bf_block_apply (c : Dev nD) (t : Fin cfg3.N) (z : Fin 1) (o : Fin 40) :
    (iblk3 V c 4 t : Vec Ideal S1x40 .f32) (ix2 z o) = (V c main_v65 : FVec Ideal ⟨2, ![1, 40]⟩ .f32) (ix2 z o) := by
  obtain ⟨-, -, -, -, -, -, -, -, e0, e1, -⟩ := block_indices t
  unfold iblk3
  rw [View.read_apply]
  show V c main_v65 _ = V c main_v65 _
  congr 1
  funext a
  apply Fin.ext
  match a with
  | ⟨0, _⟩ => show win3_4.index t (0 : Fin 2) * 1 + 1 * z.val = z.val; rw [e0]; omega
  | ⟨1, _⟩ => show win3_4.index t (1 : Fin 2) * 40 + 1 * o.val = o.val; rw [e1]; omega

/-- What point t computes at row p, column o of its tile is the projection at row 5000 t + p, column o. -/
theorem point_apply (c : Dev nD) (t : Fin cfg3.N) (p : Fin 5000) (o : Fin 40) (r : Fin 100000)
    (hr : r.val = 5000 * t.val + p.val) :
    k3_pay1 (F := Ideal) (iblk3 V c 1 t) (iblk3 V c 2 t) (iblk3 V c 0 t) (iblk3 V c 3 t) (iblk3 V c 4 t) (ix2 p o)
      = Cert.GraphJoin.projected (V c main_v49) (V c main_v63) (V c main_v64) (V c main_arg10) (V c main_v65) (ix2 r o) := by
  refine (pay_apply (iblk3 V c 1 t) (iblk3 V c 2 t) (iblk3 V c 0 t) (iblk3 V c 3 t) (iblk3 V c 4 t) p o).trans ?_
  rw [Cert.GraphJoin.projected_apply]
  refine congrArg₂ (· + ·) (Finset.sum_congr rfl fun k _ => ?_) (bf_block_apply V c t 0 o)
  rw [x1_block_apply V c t p k r hr, agg2_block_apply V c t p k r hr, b2_block_apply V c t 0 k, wf_block_apply V c t k o]

/-- What point t writes back is its block of the projection. -/
theorem flushed_eq (c : Dev nD) (t : Fin cfg3.N) :
    (dat3 (F := Ideal) V c).flushed 5 t
      = ((cfg3.win 5).blk t).view.read (Elt Ideal)
          (Cert.GraphJoin.projected (V c main_v49) (V c main_v63) (V c main_v64) (V c main_arg10) (V c main_v65)) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S1x128) zero_offsets,
    View.ld_unit_zero (S := S128x40) zero_offsets, View.ld_unit_zero (S := S1x40) zero_offsets]
  obtain ⟨-, -, -, -, -, -, -, -, -, -, e0, e1, hlt⟩ := block_indices t
  funext j
  obtain ⟨p, o, rfl⟩ : ∃ (p : Fin 5000) (o : Fin 40), j = ix2 p o := ⟨j 0, j 1, eq_ix2 j⟩
  refine (point_apply V c t p o ⟨5000 * t.val + p.val, by have := p.isLt; omega⟩ rfl).trans ?_
  rw [View.read_apply]
  show Cert.GraphJoin.projected _ _ _ _ _ _ = Cert.GraphJoin.projected _ _ _ _ _ _
  congr 1
  funext a
  apply Fin.ext
  match a with
  | ⟨0, _⟩ => show 5000 * t.val + p.val = win3_5.index t (0 : Fin 2) * 5000 + 1 * p.val; rw [e0]; omega
  | ⟨1, _⟩ => show o.val = win3_5.index t (1 : Fin 2) * 40 + 1 * o.val; rw [e1]; omega

/-- Every entry of the output lies in the block of the point its row falls to: row r in block r / 5000. -/
theorem covered (i : S100000x40.Idx) :
    ∃ t : Fin cfg3.N, (cfg3.win 5).flush t = true ∧ i ∈ ((cfg3.win 5).blk t).view.set := by
  have h0 : (i 0).val < 100000 := (i 0).isLt
  have h1 : (i 1).val < 40 := (i 1).isLt
  have hN : grid3.N = 20 := N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, -, -, -, -, -, -, e0, e1, -⟩ := block_indices t
  refine ⟨t, flush3_5 t, ?_⟩
  show i ∈ ((View.whole main_v66).slice (win3_5.rect t)).set
  rw [View.set_slice_whole, Rect.mem_set_unit]
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 40 ≤ (i 1).val ∧ (i 1).val < win3_5.index t (1 : Fin 2) * 40 + 40
    rw [e1]; omega

/-- After the region the output array is the projection of the joined layers. -/
theorem array_eq (c : Dev nD) :
    (dat3 (F := Ideal) V c).arrAt 5 cfg3.N
      = Cert.GraphJoin.projected (V c main_v49) (V c main_v63) (V c main_v64) (V c main_arg10) (V c main_v65) :=
  (dat3 (F := Ideal) V c).arrAt_eq_of_cover 5 _ (fun t _ => flushed_eq V c t) covered

end Cert.KernelIdeal.Tile3
end
-- ==== Proof.RefStages.lean ====
/-
  The reference program read stage by stage: its run and its read-at-an-index lemmas are imported here, and the
  facts about its stages that the comparison with the kernel needs are stated below.
-/
import proofs.«121198_j4501125726319_1_alg».proof.Proof.RefRead
import proofs.«121198_j4501125726319_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.ReadCopy Idealize.ShloMosaic Idealize.ShloMosaic.ValueIdx

/-! ## The two square products -/

/-- The contraction of a [100000, 128] array with a [128, 128] array along the shared axis of length 128 is the plain
    matrix product: left axis 1 against right axis 0, rows and columns kept in order, no batch axis. -/
theorem squareDot_eq_plain :
    dot_S100000x128_S128x128_S100000x128_1_0_0_1_n_n = DotDims.plain 100000 128 128 := rfl

/-- The first stage, X · W1: entry (p, q) is the sum over k of X (p, k) · W1 (k, q). -/
theorem stage30 (x0 : (⟨S100000x128, .f32⟩ : BufTy).Contents (Elt Ideal)) (x2 : (⟨S128x128, .f32⟩ : BufTy).Contents (Elt Ideal)) :
    val_main_v30 (F := Ideal) x0 x2 = Cert.PlainProduct.prod (M := 100000) (K := 128) (N := 128) (φ₁ := .f32) (φ₂ := .f32) x0 x2 := by
  unfold val_main_v30
  rw [squareDot_eq_plain]
  exact Cert.PlainProduct.dotGeneral_eq_prod none x0 x2

/-! ## Bias, normalisation, rectifier -/

/-- The second stage: at node p, feature q the reference computes
    max ( ((agg + b) − mean) · (var + ε)^(−1/2) · γ + β , 0 ), where agg is the first aggregate and every parameter, a
    vector of length 128 spread to a row and then down the nodes, is read at its entry q. -/
theorem stage62 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 x6 x7 : (⟨S128, .f32⟩ : BufTy).Contents (Elt Ideal))
    (b g be me va : FVec Ideal ⟨2, ![1, 128]⟩ .f32)
    (hb : ∀ q : Fin 128, b (ix2 0 q) = x3 (ix1 q)) (hg : ∀ q : Fin 128, g (ix2 0 q) = x4 (ix1 q))
    (hbe : ∀ q : Fin 128, be (ix2 0 q) = x5 (ix1 q)) (hme : ∀ q : Fin 128, me (ix2 0 q) = x6 (ix1 q))
    (hva : ∀ q : Fin 128, va (ix2 0 q) = x7 (ix1 q)) :
    val_main_v62 (F := Ideal) x0 x1 x2 x3 x4 x5 x6 x7
      = Cert.GraphJoin.normRelu (val_main_v43 (F := Ideal) x0 x1 x2) b g be me va := by
  funext i
  obtain ⟨p, q, rfl⟩ : ∃ (p : Fin 100000) (q : Fin 128), i = ix2 p q := ⟨i 0, i 1, eq_ix2 i⟩
  -- the five spread vectors are read at entry q
  have eb : idx_main_v44 (idx_main_v45 (ix2 p q)) = ix1 q := funext fun a => Fin.ext (by match a with | ⟨0, _⟩ => rfl)
  have eme : idx_main_v47 (idx_main_v48 (ix2 p q)) = ix1 q := funext fun a => Fin.ext (by match a with | ⟨0, _⟩ => rfl)
  have eva : idx_main_v53 (idx_main_v54 (ix2 p q)) = ix1 q := funext fun a => Fin.ext (by match a with | ⟨0, _⟩ => rfl)
  have eg : idx_main_v56 (idx_main_v57 (ix2 p q)) = ix1 q := funext fun a => Fin.ext (by match a with | ⟨0, _⟩ => rfl)
  have ebe : idx_main_v59 (idx_main_v60 (ix2 p q)) = ix1 q := funext fun a => Fin.ext (by match a with | ⟨0, _⟩ => rfl)
  -- the reference's operations from the rectifier inwards, each read at (p, q)
  rw [val_main_v62_apply, val_main_v61_apply, val_main_v58_apply, val_main_v55_apply, val_main_v49_apply,
    val_main_v46_apply, val_main_v45_apply, val_main_v44_apply, val_main_v48_apply, val_main_v47_apply,
    val_main_v54_apply, val_main_v53_apply, val_main_v52_apply, val_main_v51_apply, val_main_v50_apply,
    val_main_cst_9_apply, val_main_v57_apply, val_main_v56_apply, val_main_v60_apply, val_main_v59_apply,
    val_main_call1_v0_apply, val_main_call1_cst_apply, eb, eme, eva, eg, ebe]
  -- the specification's entry, its rows read through the hypotheses
  rw [Cert.GraphJoin.normRelu_apply]
  unfold Cert.GraphJoin.normReluAt
  rw [hb q, hg q, hbe q, hme q, hva q]
  rfl

/-! ## The second square product -/

/-- The third stage, x1 · W2 with x1 the rectified features: entry (p, q) is the sum over k of x1 (p, k) · W2 (k, q). -/
theorem stage63 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 x6 x7 : (⟨S128, .f32⟩ : BufTy).Contents (Elt Ideal))
    (x8 : (⟨S128x128, .f32⟩ : BufTy).Contents (Elt Ideal)) :
    val_main_v63 (F := Ideal) x0 x1 x2 x3 x4 x5 x6 x7 x8
      = Cert.PlainProduct.prod (M := 100000) (K := 128) (N := 128) (φ₁ := .f32) (φ₂ := .f32) (val_main_v62 (F := Ideal) x0 x1 x2 x3 x4 x5 x6 x7) x8 := by
  unfold val_main_v63
  generalize val_main_v62 (F := Ideal) x0 x1 x2 x3 x4 x5 x6 x7 = y
  rw [squareDot_eq_plain]
  exact Cert.PlainProduct.dotGeneral_eq_prod none y x8

/-! ## Join and projection -/

/-- The last stage: at node p, output o the reference computes
    ( Σ_k max (x1 (p, k), agg2 (p, k) + b2 k) · Wf (k, o) ) + bf o,
    with x1 the rectified features and agg2 the second aggregate. -/
theorem stage84 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 x6 x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x40, .f32⟩ : BufTy).Contents (Elt Ideal)) (x11 : (⟨S40, .f32⟩ : BufTy).Contents (Elt Ideal))
    (b2 : FVec Ideal ⟨2, ![1, 128]⟩ .f32) (bf : FVec Ideal ⟨2, ![1, 40]⟩ .f32)
    (hb2 : ∀ k : Fin 128, b2 (ix2 0 k) = x9 (ix1 k)) (hbf : ∀ o : Fin 40, bf (ix2 0 o) = x11 (ix1 o)) :
    val_main_v84 (F := Ideal) x0 x1 x2 x3 x4 x5 x6 x7 x8 x9 x10 x11
      = Cert.GraphJoin.projected (val_main_v62 (F := Ideal) x0 x1 x2 x3 x4 x5 x6 x7)
          (val_main_v76 (F := Ideal) x0 x1 x2 x3 x4 x5 x6 x7 x8) b2 x10 bf := by
  funext i
  obtain ⟨p, o, rfl⟩ : ∃ (p : Fin 100000) (o : Fin 40), i = ix2 p o := ⟨i 0, i 1, eq_ix2 i⟩
  -- the output bias, a vector of length 40 spread to a row and down the nodes, is read at entry o
  have eo : idx_main_v82 (idx_main_v83 (ix2 p o)) = ix1 o := funext fun a => Fin.ext (by match a with | ⟨0, _⟩ => rfl)
  -- term k of the contraction: the joined feature (p, k) times Wf (k, o)
  have terms : (∑ k : Fin 128, (val_main_v80 (F := Ideal) x0 x1 x2 x3 x4 x5 x6 x7 x8 x9) (lidx_main_v81 (ix2 p o) k)
        * x10 (ridx_main_v81 (ix2 p o) k))
      = ∑ k : Fin 128, max (val_main_v62 (F := Ideal) x0 x1 x2 x3 x4 x5 x6 x7 (ix2 p k))
          (val_main_v76 (F := Ideal) x0 x1 x2 x3 x4 x5 x6 x7 x8 (ix2 p k) + b2 (ix2 0 k)) * x10 (ix2 k o) := by
    refine Finset.sum_congr rfl fun k _ => ?_
    have el : lidx_main_v81 (ix2 p o) k = ix2 p k :=
      funext fun a => Fin.ext (by match a with | ⟨0, _⟩ => rfl | ⟨1, _⟩ => rfl)
    have er : ridx_main_v81 (ix2 p o) k = ix2 k o :=
      funext fun a => Fin.ext (by match a with | ⟨0, _⟩ => rfl | ⟨1, _⟩ => rfl)
    have ek : idx_main_v77 (idx_main_v78 (ix2 p k)) = ix1 k := funext fun a => Fin.ext (by match a with | ⟨0, _⟩ => rfl)
    rw [el, er, val_main_v80_apply, val_main_v79_apply, val_main_v78_apply, val_main_v77_apply, ek, hb2 k]
    rfl
  rw [val_main_v84_apply, val_main_v81_apply, val_main_v83_apply, val_main_v82_apply, eo, terms,
    Cert.GraphJoin.projected_apply, hbf o]
  rfl

end Cert.ReferenceIdeal.Stages

end
-- ==== Proof.KValue.lean ====
/-
  The kernel program's result array as a function of its arguments: region by region, each output array is the
  reference program's stage of the same meaning. The first and third regions leave a matrix product, the second the
  biased, normalised and rectified aggregate, the fourth the projection of the entrywise maximum of the two layers; the
  host's gather, scaling and scatter between them are the reference's own, applied to equal arrays.
-/
import proofs.«121198_j4501125726319_1_alg».proof.Proof.KFold
import proofs.«121198_j4501125726319_1_alg».proof.Proof.Region0
import proofs.«121198_j4501125726319_1_alg».proof.Proof.Region1
import proofs.«121198_j4501125726319_1_alg».proof.Proof.Region2
import proofs.«121198_j4501125726319_1_alg».proof.Proof.Region3
import proofs.«121198_j4501125726319_1_alg».proof.Proof.RefStages
import proofs.«121198_j4501125726319_1_alg».proof.Proof.Spec
import Idealize.ShloMosaic.Lib.Pipeline.Value
import Idealize.ShloMosaic.Lib.ValueIdx

noncomputable section

namespace Cert.KernelIdeal.Value

open Cert.KernelIdeal Cert.KernelIdeal.Gen Cert.KernelIdeal.Fold
open Idealize.ShloMosaic Idealize.ShloMosaic.TcCoe Idealize.SL.Sem Idealize.ShloMosaic.ValueIdx
open Cert.ReferenceIdeal.ReadCopy (val_main_v30 val_main_v43 val_main_v62 val_main_v63 val_main_v76 val_main_v84)

variable (m : (ℓ : Loc nD τ sig) → Buf (Elt Ideal) ℓ) (ρ : Dev nD → PrngReg) (c : Dev nD)

/-- A vector cast to a one-row matrix, read at (0, q), is the vector's entry q. -/
theorem row_entry {n : Nat} (x : (⟨1, ![n]⟩ : Shape).Idx → Ideal .f32) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

/-- After the first region its output array is the reference's first product x · W1. -/
theorem product1 :
    W4 m ρ c (Proc.devRef .tc main_v30) = val_main_v30 (F := Ideal) (arg m c main_arg0) (arg m c main_arg2) := by
  rw [exit0_product, Tile0.array_eq (V3 m ρ) c,
    show V3 m ρ c main_arg0 = arg m c main_arg0 from entry0_arg0 m ρ c,
    show V3 m ρ c main_arg2 = arg m c main_arg2 from entry0_arg2 m ρ c]
  exact (Cert.ReferenceIdeal.Stages.stage30 _ _).symm

/-- After the second region its output array is the reference's first layer: the aggregate of the first product,
    biased, normalised and rectified. -/
theorem features :
    W6 m ρ c (Proc.devRef .tc main_v49)
      = val_main_v62 (F := Ideal) (arg m c main_arg0) (arg m c main_arg1) (arg m c main_arg2) (arg m c main_arg3)
          (arg m c main_arg4) (arg m c main_arg5) (arg m c main_arg6) (arg m c main_arg7) := by
  rw [exit1_features, Tile1.array_eq (V5 m ρ) c,
    show V5 m ρ c main_v43 = _ from entry1_aggregate m ρ c (product1 m ρ c),
    show V5 m ρ c main_v44 = _ from entry1_bias m ρ c,
    show V5 m ρ c main_v45 = _ from entry1_scale m ρ c,
    show V5 m ρ c main_v46 = _ from entry1_shift m ρ c,
    show V5 m ρ c main_v47 = _ from entry1_mean m ρ c,
    show V5 m ρ c main_v48 = _ from entry1_variance m ρ c]
  exact (Cert.ReferenceIdeal.Stages.stage62 _ _ _ _ _ _ _ _ _ _ _ _ _
    (fun q => row_entry _ _ q) (fun q => row_entry _ _ q) (fun q => row_entry _ _ q) (fun q => row_entry _ _ q)
    (fun q => row_entry _ _ q)).symm

/-- After the third region its output array is the reference's second product x1 · W2. -/
theorem product2 :
    W7 m ρ c (Proc.devRef .tc main_v50)
      = val_main_v63 (F := Ideal) (arg m c main_arg0) (arg m c main_arg1) (arg m c main_arg2) (arg m c main_arg3)
          (arg m c main_arg4) (arg m c main_arg5) (arg m c main_arg6) (arg m c main_arg7) (arg m c main_arg8) := by
  rw [exit2_product, Tile2.array_eq (V6 m ρ) c,
    show V6 m ρ c main_v49 = _ from features m ρ c,
    show V6 m ρ c main_arg8 = _ from entry2_weights m ρ c]
  exact (Cert.ReferenceIdeal.Stages.stage63 _ _ _ _ _ _ _ _ _).symm

/-- After the fourth region the result array is the reference's result: the two layers joined by their entrywise
    maximum and projected. -/
theorem result_eq :
    W9 m ρ c (Proc.devRef .tc main_v66)
      = val_main_v84 (F := Ideal) (arg m c main_arg0) (arg m c main_arg1) (arg m c main_arg2) (arg m c main_arg3)
          (arg m c main_arg4) (arg m c main_arg5) (arg m c main_arg6) (arg m c main_arg7) (arg m c main_arg8)
          (arg m c main_arg9) (arg m c main_arg10) (arg m c main_arg11) := by
  rw [exit3_result, Tile3.array_eq (V8 m ρ) c,
    show V8 m ρ c main_v49 = _ from (entry3_features m ρ c).trans (features m ρ c),
    show V8 m ρ c main_v63 = _ from entry3_aggregate m ρ c (product2 m ρ c),
    show V8 m ρ c main_v64 = _ from entry3_bias m ρ c,
    show V8 m ρ c main_arg10 = _ from entry3_weights m ρ c,
    show V8 m ρ c main_v65 = _ from entry3_projBias m ρ c]
  exact (Cert.ReferenceIdeal.Stages.stage84 _ _ _ _ _ _ _ _ _ _ _ _ _ _
    (fun k => row_entry _ _ k) (fun o => row_entry _ _ o)).symm

end Cert.KernelIdeal.Value

end
-- ==== Proof.lean ====
/-
  A two-layer graph convolution with batch normalisation, a rectifier, a join of the two layers by their entrywise
  maximum and a final projection, computed by four row-tiled kernel regions with the host's gather, scaling and
  scatter between them, against the same network written with whole-array operations.

  Over the extended reals the two programs are one function of their arguments. Each kernel region works on tiles of
  5000 rows and contracts over the whole feature axis, so no sum is split: a region's output array is the whole-array
  product, the whole-array normalisation, or the whole-array projection that the reference applies at the same place
  (narrowing an operand to a shorter float format is the identity there, and a product accumulated into zero is the
  product). The host operations between the regions are the reference's own and are applied to equal arrays. No law of
  arithmetic is used beyond reading both sides entry by entry, so the precondition is never opened.

  The frames of the two kernel programs are the generated ones; the reference's frame is its run with the result
  dropped; the idealisation rewrote nothing, so there is nothing to preserve.
-/
import proofs.«121198_j4501125726319_1_alg».proof.Defs
import proofs.«121198_j4501125726319_1_alg».proof.Proof.Gen.Kernel
import proofs.«121198_j4501125726319_1_alg».proof.Proof.Gen.Kernel.Frame
import proofs.«121198_j4501125726319_1_alg».proof.Proof.Gen.KernelIdeal
import proofs.«121198_j4501125726319_1_alg».proof.Proof.Gen.KernelIdeal.Frame
import proofs.«121198_j4501125726319_1_alg».proof.Proof.Gen.ReferenceIdeal
import proofs.«121198_j4501125726319_1_alg».proof.Proof.Gen.Pre_finite_inputs
import proofs.«121198_j4501125726319_1_alg».proof.Proof.KRun
import proofs.«121198_j4501125726319_1_alg».proof.Proof.KValue
import Idealize.ShloMosaic.Adequacy
import Idealize.ShloMosaic.Init

noncomputable section

namespace Cert.Proof

open Idealize.ShloMosaic Idealize.SL.Sem

/-- The kernel program as printed runs to its end without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.RunCopy.run (F := Ideal) m ρ)

/-- Both programs end with the reference's last stage of the arguments: the kernel's result array by the regions'
    arrays read back through the run, the reference's by its own run, the arguments agreeing. -/
theorem algebraic : Cert.algebraic_KernelIdeal_ReferenceIdeal := by
  intro m ρ m' ρ' _ hagree
  refine ⟨fun c => Cert.ReferenceIdeal.ReadCopy.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Value.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.RunCopy.run (F := Ideal) m' ρ')
    obtain ⟨e0, e1, e2, e3, e4, e5, e6, e7, e8, e9, e10, e11⟩ := hagree c
    rw [Cert.ReferenceIdeal.ReadCopy.val_main_v84_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
